-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x1024 : Shape := ⟨2, ![256, 1024]⟩
abbrev S1024x1024 : Shape := ⟨2, ![1024, 1024]⟩
abbrev S_ : Shape := ⟨0, ![]⟩

class Facts : Prop where
  bcast_S_S256x1024 : S_.BroadcastsInDim S256x1024 (![] : Fin 0 → Fin S256x1024.rank)
  reducesTo_S256x1024_S_d0_1 : S256x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S256x1024 .f32) (main_arg1 : FVec F S1024x1024 .f32) : IVec S_ 1 :=
  let main_v0 : FVec F S256x1024 .f32 := Host.absf main_arg0
  let main_cst : FVec F S_ .f32 := constant S_ .f32 0x7F800000#32
  let main_v1 : FVec F S256x1024 .f32 := broadcastInDim S256x1024 ![] bcast_S_S256x1024 main_cst
  let main_v2 : IVec S256x1024 1 := cmpf .olt main_v0 main_v1
  let main_c : IVec S_ 1 := constantI S_ 1 1#1
  let main_v3 : IVec S_ 1 := (fun x v => Host.reduce IntOp.andi x v reducesTo_S256x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  main_v8
-- ==== Kernel.lean ====
abbrev S256x1024 : Shape := ⟨2, ![256, 1024]⟩
abbrev S1024x1024 : Shape := ⟨2, ![1024, 1024]⟩
abbrev S128x1024 : Shape := ⟨2, ![128, 1024]⟩
abbrev S1024x128 : Shape := ⟨2, ![1024, 128]⟩
abbrev S128x128 : Shape := ⟨2, ![128, 128]⟩
abbrev S128x128x1 : Shape := ⟨3, ![128, 128, 1]⟩
abbrev S1x128x128 : Shape := ⟨3, ![1, 128, 128]⟩
abbrev S128x128x128 : Shape := ⟨3, ![128, 128, 128]⟩

abbrev nBuf : Space → Nat
  | .hbm => 3
  | .vmem => 6
  | .smem => 0
  | _ => 0

abbrev bufTy : (tb : Table) → Fin (tcTables nBuf tb) → BufTy
  | .hbm, ⟨0, _⟩ => ⟨S256x1024, .f32⟩
  | .hbm, ⟨1, _⟩ => ⟨S1024x1024, .f32⟩
  | .hbm, ⟨2, _⟩ => ⟨S256x1024, .f32⟩
  | .local _ .vmem, ⟨0, _⟩ => ⟨S128x1024, .f32⟩
  | .local _ .vmem, ⟨1, _⟩ => ⟨S128x1024, .f32⟩
  | .local _ .vmem, ⟨2, _⟩ => ⟨S1024x128, .f32⟩
  | .local _ .vmem, ⟨3, _⟩ => ⟨S1024x128, .f32⟩
  | .local _ .vmem, ⟨4, _⟩ => ⟨S128x128, .f32⟩
  | .local _ .vmem, ⟨5, _⟩ => ⟨S128x128, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def k0_mult1 : BitVec 32 :=
  let c0_i32 : BitVec 32 := 0#32
  let c128_i32 : BitVec 32 := 128#32
  let v1 : BitVec 32 := Scalar.muli c0_i32 c128_i32
  v1
def k0_off1 (c0_i32 : BitVec 32) : Fin 2 → Nat :=
  let c0 : Index := 0#32
  let c128_i32 : BitVec 32 := 128#32
  let v1 : BitVec 32 := Scalar.muli c0_i32 c128_i32
  let v2 : BitVec 32 := v1
  let v3 : Index := Scalar.indexCast v2
  ![0, v3.toNat]
def k0_off2 (c0_i32 : BitVec 32) : Fin 2 → Nat :=
  let c128_i32 : BitVec 32 := 128#32
  let v1 : BitVec 32 := Scalar.muli c0_i32 c128_i32
  let v2 : BitVec 32 := v1
  let v5 : Index := Scalar.indexCast v2
  let c0_0 : Index := 0#32
  ![v5.toNat, 0]
def k0_mult2 : BitVec 32 :=
  let c1_i32 : BitVec 32 := 1#32
  let c128_i32_2 : BitVec 32 := 128#32
  let v14 : BitVec 32 := Scalar.muli c1_i32 c128_i32_2
  v14
def k0_mult3 : BitVec 32 :=
  let c2_i32 : BitVec 32 := 2#32
  let c128_i32_6 : BitVec 32 := 128#32
  let v27 : BitVec 32 := Scalar.muli c2_i32 c128_i32_6
  v27
def k0_mult4 : BitVec 32 :=
  let c3_i32 : BitVec 32 := 3#32
  let c128_i32_10 : BitVec 32 := 128#32
  let v40 : BitVec 32 := Scalar.muli c3_i32 c128_i32_10
  v40
def k0_mult5 : BitVec 32 :=
  let c4_i32 : BitVec 32 := 4#32
  let c128_i32_14 : BitVec 32 := 128#32
  let v53 : BitVec 32 := Scalar.muli c4_i32 c128_i32_14
  v53
def k0_mult6 : BitVec 32 :=
  let c5_i32 : BitVec 32 := 5#32
  let c128_i32_18 : BitVec 32 := 128#32
  let v66 : BitVec 32 := Scalar.muli c5_i32 c128_i32_18
  v66
def k0_mult7 : BitVec 32 :=
  let c6_i32 : BitVec 32 := 6#32
  let c128_i32_22 : BitVec 32 := 128#32
  let v79 : BitVec 32 := Scalar.muli c6_i32 c128_i32_22
  v79
def k0_mult8 : BitVec 32 :=
  let c7_i32 : BitVec 32 := 7#32
  let c128_i32_26 : BitVec 32 := 128#32
  let v92 : BitVec 32 := Scalar.muli c7_i32 c128_i32_26
  v92
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  h_S128x128 : 0 < S128x128.numel
  shapeCasts_S128x128_S128x128x1 : S128x128.ShapeCasts S128x128x1
  shapeCasts_S128x128_S1x128x128 : S128x128.ShapeCasts S1x128x128
  broadcasts_S128x128x1_S128x128x128 : S128x128x1.Broadcasts S128x128x128
  broadcasts_S1x128x128_S128x128x128 : S1x128x128.Broadcasts S128x128x128
  reduces_S128x128x128_S128x128 : S128x128x128.Reduces [1] S128x128
  inb_S128x128_S128x128_0_0 : ∀ a, (![0, 0] : Fin 2 → Nat) a + S128x128.size a ≤ S128x128.size a
  hrank0 : 0 < grid0.rank
  k0_mult1_dvd : 128 ∣ k0_mult1.toNat
  k0_off1_inb : ∀ (r : Fin 8), ∀ a, (k0_off1 (BitVec.ofNat 32 r.val)) a + S128x128.size a ≤ S128x1024.size a
  k0_off2_inb : ∀ (r : Fin 8), ∀ a, (k0_off2 (BitVec.ofNat 32 r.val)) a + S128x128.size a ≤ S1024x128.size a
  k0_mult2_dvd : 128 ∣ k0_mult2.toNat
  k0_mult3_dvd : 128 ∣ k0_mult3.toNat
  k0_mult4_dvd : 128 ∣ k0_mult4.toNat
  k0_mult5_dvd : 128 ∣ k0_mult5.toNat
  k0_mult6_dvd : 128 ∣ k0_mult6.toNat
  k0_mult7_dvd : 128 ∣ k0_mult7.toNat
  k0_mult8_dvd : 128 ∣ k0_mult8.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S256x1024.size a
  hwx0_0 : ∀ i : grid0.Coords, EltTy.bits .f32 = 32 ∨ (Rect.block (s := S256x1024) S128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S1024x1024.size a
  hwx0_1 : ∀ i : grid0.Coords, EltTy.bits .f32 = 32 ∨ (Rect.block (s := S1024x1024) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S256x1024.size a
  hwx0_2 : ∀ i : grid0.Coords, EltTy.bits .f32 = 32 ∨ (Rect.block (s := S256x1024) S128x128.size (cc0_transform_2 i) (hinb0_2 i)).WholeWords (EltTy.packing .f32)

variable [Facts₀]

abbrev win0_0 : Pipeline.Window sig grid0 :=
  Pipeline.Window.ofSpec (Memref.whole main_arg0) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S256x1024 : Shape := ⟨2, ![256, 1024]⟩
abbrev S1024x1024 : Shape := ⟨2, ![1024, 1024]⟩
abbrev S256x1024x1 : Shape := ⟨3, ![256, 1024, 1]⟩
abbrev S1x1024x1024 : Shape := ⟨3, ![1, 1024, 1024]⟩
abbrev S256x1024x1024 : Shape := ⟨3, ![256, 1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024x1024, .f32⟩
  | .hbm, ⟨2, _⟩ => ⟨S256x1024x1, .f32⟩
  | .hbm, ⟨3, _⟩ => ⟨S1x1024x1024, .f32⟩
  | .hbm, ⟨4, _⟩ => ⟨S256x1024x1024, .f32⟩
  | .hbm, ⟨5, _⟩ => ⟨S256x1024x1024, .f32⟩
  | .hbm, ⟨6, _⟩ => ⟨S256x1024x1024, .f32⟩
  | .hbm, ⟨7, _⟩ => ⟨S_, .f32⟩
  | .hbm, ⟨8, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩

abbrev nD : Nat := 1
abbrev τ : Topo := Topo.v7x

variable {F : FTy → Type} [FloatOps F]

class Facts₀ : Prop where
  bcast_S256x1024_S256x1024x1_0_1 : S256x1024.BroadcastsInDim S256x1024x1 (![0, 1] : Fin 2 → Fin S256x1024x1.rank)
  bcast_S1024x1024_S1x1024x1024_1_2 : S1024x1024.BroadcastsInDim S1x1024x1024 (![1, 2] : Fin 2 → Fin S1x1024x1024.rank)
  bcast_S256x1024x1_S256x1024x1024_0_1_2 : S256x1024x1.BroadcastsInDim S256x1024x1024 (![0, 1, 2] : Fin 3 → Fin S256x1024x1024.rank)
  bcast_S1x1024x1024_S256x1024x1024_0_1_2 : S1x1024x1024.BroadcastsInDim S256x1024x1024 (![0, 1, 2] : Fin 3 → Fin S256x1024x1024.rank)
  reducesTo_S256x1024x1024_S256x1024_d1 : S256x1024x1024.ReducesTo [1] S256x1024
  h_S_ : 0 < S_.numel

variable [Facts₀]

class Facts : Prop extends Facts₀ where

variable [Facts]
-- ==== Proof.Spec.lean ====
/-
  The max-min composition as one function of its two operands, and the law that lets it be taken chunk by chunk.

  `compose a w` is, at `(b, o)`, the supremum over the inner index `i` (1024 values) of `min (a[b, i]) (w[i, o])`, on the
  extended reals, whose bottom element is minus infinity.  The inner index splits as `i = 128 * k + j` with eight chunks
  `k` of 128 consecutive values `j`; the running maximum over the eight chunk suprema, started from the bottom element, is
  the supremum over all 1024 (suprema are associative and commutative, and the bottom element is neutral).
-/
import Idealize.ShloMosaic.PureOps.Ideal
import Idealize.ShloMosaic.Lib.ValueIdx

noncomputable section

namespace MaxMin

open Idealize.ShloMosaic Idealize.ShloMosaic.ValueIdx

abbrev Lhs : Shape := ⟨2, ![256, 1024]⟩
abbrev Rhs : Shape := ⟨2, ![1024, 1024]⟩

/-- The max-min composition: `out[b, o] = sup_i min (a[b, i]) (w[i, o])`. -/
def compose (a : Lhs.Idx → EReal) (w : Rhs.Idx → EReal) : Lhs.Idx → EReal :=
  fun i => Finset.univ.sup fun k : Fin 1024 => min (a (ix2 (i 0) k)) (w (ix2 k (i 1)))

theorem compose_apply (a : Lhs.Idx → EReal) (w : Rhs.Idx → EReal) (b : Fin 256) (o : Fin 1024) :
    compose a w (ix2 b o) = Finset.univ.sup fun k : Fin 1024 => min (a (ix2 b k)) (w (ix2 k o)) := rfl

/-- Inner index `128 * k + j`: entry `j` of chunk `k`. -/
def inChunk (k : Fin 8) (j : Fin 128) : Fin 1024 := ⟨128 * k.val + j.val, by have := k.isLt; have := j.isLt; omega⟩

theorem inChunk_val (k : Fin 8) (j : Fin 128) : (inChunk k j).val = 128 * k.val + j.val := rfl

/-- The supremum of one chunk. -/
def chunkSup (g : Fin 1024 → EReal) (k : Fin 8) : EReal := Finset.univ.sup fun j : Fin 128 => g (inChunk k j)

theorem chunkSup_le (g : Fin 1024 → EReal) (k : Fin 8) : chunkSup g k ≤ Finset.univ.sup g :=
  Finset.sup_le fun j _ => Finset.le_sup (f := g) (Finset.mem_univ (inChunk k j))

/-- The running maximum over the eight chunk suprema, from the bottom element, is the supremum over every inner index. -/
theorem running_max_eq_sup (g : Fin 1024 → EReal) :
    max (max (max (max (max (max (max (max (⊥ : EReal) (chunkSup g 0)) (chunkSup g 1)) (chunkSup g 2)) (chunkSup g 3))
      (chunkSup g 4)) (chunkSup g 5)) (chunkSup g 6)) (chunkSup g 7) = Finset.univ.sup g := by
  apply le_antisymm
  · exact max_le (max_le (max_le (max_le (max_le (max_le (max_le (max_le bot_le (chunkSup_le g 0)) (chunkSup_le g 1))
      (chunkSup_le g 2)) (chunkSup_le g 3)) (chunkSup_le g 4)) (chunkSup_le g 5)) (chunkSup_le g 6)) (chunkSup_le g 7)
  · refine Finset.sup_le fun i _ => ?_
    obtain ⟨k, j, rfl⟩ : ∃ (k : Fin 8) (j : Fin 128), i = inChunk k j :=
      ⟨⟨i.val / 128, by have := i.isLt; omega⟩, ⟨i.val % 128, Nat.mod_lt _ (by decide)⟩,
        Fin.ext (by rw [inChunk_val]; show i.val = 128 * (i.val / 128) + i.val % 128; omega)⟩
    have hj : g (inChunk k j) ≤ chunkSup g k := Finset.le_sup (f := fun j => g (inChunk k j)) (Finset.mem_univ j)
    refine hj.trans ?_
    fin_cases k <;> simp [le_max_iff]

end MaxMin

end
-- ==== Proof.Chunk.lean ====
/-
  One chunk of the max-min composition, read at an output entry.

  A chunk takes a 128 x 128 piece `x` of the left operand (rows `b`, inner index `j`) and a 128 x 128 piece `y` of the
  right operand (inner index `j`, columns `o`), forms the three-axis array `min (x[b, j]) (y[j, o])` by giving `x` a
  trailing unit axis and `y` a leading one and broadcasting both to 128 x 128 x 128, and takes the maximum over the
  middle axis from minus infinity.  On the extended reals minus infinity is the bottom element, so the fold of `max` from
  it over the 128 inner indices is their supremum: at `(b, o)` the chunk is `sup_j min (x[b, j]) (y[j, o])`.
-/
import Idealize.ShloMosaic.PureOps.Ideal.Laws
import Idealize.ShloMosaic.Lib.ValueIdx
import Idealize.ShloMosaic.Lib.Pipeline.Value

noncomputable section

namespace MaxMin

open Idealize.ShloMosaic Idealize.ShloMosaic.ValueIdx

abbrev Sq : Shape := ⟨2, ![128, 128]⟩
abbrev SqCol : Shape := ⟨3, ![128, 128, 1]⟩
abbrev SqRow : Shape := ⟨3, ![1, 128, 128]⟩
abbrev Cube : Shape := ⟨3, ![128, 128, 128]⟩

/-- The f32 pattern of minus infinity denotes the bottom of the extended reals. -/
theorem ofBits_neg_inf : Ideal.ofBits .f32 0xFF800000#32 = (⊥ : EReal) := by
  simp [Ideal.ofBits, Ideal.ieee]

/-- A fold of `max` from the bottom element is the supremum. -/
theorem fold_max_bot {ι : Type*} (s : Finset ι) (f : ι → EReal) : s.fold max (⊥ : EReal) f = s.sup f := rfl

/-- The reduced index `(b, o)` with the inner coordinate `j` put back on the middle axis is `(b, j, o)`. -/
theorem lift_mid (h : Cube.Reduces [1] Sq) (b o : Fin 128) (j : Fin (Cube.size 1)) :
    h.lift (ix2 b o) j = ix3 b (⟨j.val, j.isLt⟩ : Fin 128) o := by
  funext c; apply Fin.ext
  fin_cases c <;> rfl

/-- The left piece with a trailing unit axis, broadcast along the last axis, read at `(b, j, o)`: `x[b, j]`. -/
theorem left_apply (x : Sq.Idx → EReal) (hc : Sq.ShapeCasts SqCol) (hb : SqCol.Broadcasts Cube) (b j o : Fin 128) :
    broadcastTo Cube (shapeCast SqCol x hc) hb (ix3 b j o) = x (ix2 b j) := by
  rw [broadcastTo_apply (shapeCast SqCol x hc) hb (ix3 b j o) (ix3 b j (0 : Fin 1))
    (fun a => by fin_cases a <;> rfl)]
  exact shapeCast_apply x hc _ _ (by
    rw [Shape.rowMajor_val_three, Shape.rowMajor_val_two]
    show b.val * 128 + j.val = (b.val * 128 + j.val) * 1 + 0
    omega)

/-- The right piece with a leading unit axis, broadcast along the first axis, read at `(b, j, o)`: `y[j, o]`. -/
theorem right_apply (y : Sq.Idx → EReal) (hc : Sq.ShapeCasts SqRow) (hb : SqRow.Broadcasts Cube) (b j o : Fin 128) :
    broadcastTo Cube (shapeCast SqRow y hc) hb (ix3 b j o) = y (ix2 j o) := by
  rw [broadcastTo_apply (shapeCast SqRow y hc) hb (ix3 b j o) (ix3 (0 : Fin 1) j o)
    (fun a => by fin_cases a <;> rfl)]
  exact shapeCast_apply y hc _ _ (by
    rw [Shape.rowMajor_val_three, Shape.rowMajor_val_two]
    show j.val * 128 + o.val = (0 * 128 + j.val) * 128 + o.val
    omega)

/-- One chunk at `(b, o)`: the supremum over the inner index of `min (x[b, j]) (y[j, o])`. -/
theorem chunk_apply (x y : FVec Ideal Sq .f32) (hcx : Sq.ShapeCasts SqCol) (hcy : Sq.ShapeCasts SqRow)
    (hbx : SqCol.Broadcasts Cube) (hby : SqRow.Broadcasts Cube) (hr : Cube.Reduces [1] Sq)
    (hφ : FKind.Formats .f32) (hacc : (0xFF800000#32 : BitVec 32) = FKind.maximumf.neutral .f32 hφ) (b o : Fin 128) :
    multiReduction .maximumf [1] Sq
        (minimumf (broadcastTo Cube (shapeCast SqCol x hcx) hbx) (broadcastTo Cube (shapeCast SqRow y hcy) hby) : FVec Ideal Cube .f32)
        0xFF800000#32 hr hφ hacc (ix2 b o)
      = Finset.univ.sup fun j : Fin 128 => min (x (ix2 b j)) (y (ix2 j o)) := by
  rw [Ideal.multiReduction_maximumf_single]
  have e : FloatOps.ofBits (F := Ideal) .f32 0xFF800000#32 = (⊥ : EReal) := ofBits_neg_inf
  rw [e]
  change (Finset.univ : Finset (Fin 128)).sup (fun j : Fin 128 =>
    (minimumf (broadcastTo Cube (shapeCast SqCol x hcx) hbx) (broadcastTo Cube (shapeCast SqRow y hcy) hby) : FVec Ideal Cube .f32)
      (hr.lift (ix2 b o) j)) = _
  refine Finset.sup_congr rfl fun j _ => ?_
  rw [lift_mid hr b o j, minimumf_apply, left_apply, right_apply]

end MaxMin

end
-- ==== Proof.BlockValue.lean ====
/-
  What one grid point of the kernel leaves in its output block, as a value.

  At a grid point the body holds a 128 x 1024 block `x0` of the left operand and a 1024 x 128 block `x1` of the right
  operand.  It walks the inner axis in eight chunks of 128: chunk `k` reads columns `128 k .. 128 k + 127` of `x0` and the
  same rows of `x1`, takes `max_j min (x0[p, j]) (x1[j, q])` over the chunk, and folds that into a running maximum that
  starts at minus infinity.  The one store writes the running maximum after the eighth chunk over the whole output block.
  Read at `(p, q)` on the extended reals this is `sup_i min (x0[p, i]) (x1[i, q])` over all 1024 inner indices.
-/
import proofs.«160439_j28183575396611_1_alg».proof.Proof.Gen.KernelIdeal.Value
import proofs.«160439_j28183575396611_1_alg».proof.Proof.Spec
import proofs.«160439_j28183575396611_1_alg».proof.Proof.Chunk
import Idealize.ShloMosaic.Lib.Pipeline.Value
import Idealize.ShloMosaic.Lib.Tactic

noncomputable section

open Idealize.ShloMosaic Idealize.ShloMosaic.TcCoe Idealize.SL.Sem

namespace Cert.KernelIdeal.BlockValue

open Cert.KernelIdeal Cert.KernelIdeal.Gen MaxMin Idealize.ShloMosaic.ValueIdx

variable {F : FTy → Type} [FloatOps F]

theorem hz : (![0, 0] : Fin 2 → Nat) = fun _ => 0 := funext fun a => by fin_cases a <;> rfl

/-- Columns `128 k .. 128 k + 127` of the left block. -/
def colChunk (x : Vec F S128x1024 .f32) (k : Fin 8) : Vec F S128x128 .f32 := fun y => x (ix2 (y 0) (inChunk k (y 1)))

/-- Rows `128 k .. 128 k + 127` of the right block. -/
def rowChunk (x : Vec F S1024x128 .f32) (k : Fin 8) : Vec F S128x128 .f32 := fun y => x (ix2 (inChunk k (y 0)) (y 1))

/-- A load of 128 x 128 entries from column offset `128 k` of the left block reads chunk `k` of its columns. -/
theorem ld_col (x : Vec F S128x1024 .f32) (k : Fin 8) (c : Nat) (hc : c = 128 * k.val)
    (inb : ∀ a, (![0, c] : Fin 2 → Nat) a + S128x128.size a ≤ S128x1024.size a) :
    View.ld x (Rect.unit (s := S128x1024) ![0, c] S128x128.size inb) = colChunk x k := by
  subst hc
  funext y
  refine congrArg x (funext fun a => Fin.ext ?_)
  match a with
  | ⟨0, _⟩ => show 0 + 1 * (y 0).val = (y 0).val; omega
  | ⟨1, _⟩ => show 128 * k.val + 1 * (y 1).val = 128 * k.val + (y 1).val; omega

/-- A load of 128 x 128 entries from row offset `128 k` of the right block reads chunk `k` of its rows. -/
theorem ld_row (x : Vec F S1024x128 .f32) (k : Fin 8) (c : Nat) (hc : c = 128 * k.val)
    (inb : ∀ a, (![c, 0] : Fin 2 → Nat) a + S128x128.size a ≤ S1024x128.size a) :
    View.ld x (Rect.unit (s := S1024x128) ![c, 0] S128x128.size inb) = rowChunk x k := by
  subst hc
  funext y
  refine congrArg x (funext fun a => Fin.ext ?_)
  match a with
  | ⟨0, _⟩ => show 128 * k.val + 1 * (y 0).val = 128 * k.val + (y 0).val; omega
  | ⟨1, _⟩ => show 0 + 1 * (y 1).val = (y 1).val; omega

/-- The stored value: the running maximum after the eight chunks, as the three payload terms composed. -/
def body (x0 : Vec F S128x1024 .f32) (x1 : Vec F S1024x128 .f32) : Vec F S128x128 .f32 :=
  k0_pay1
    (k0_pay3
      (k0_pay2 (colChunk x0 0) (rowChunk x1 0) (colChunk x0 1) (rowChunk x1 1) (colChunk x0 2) (rowChunk x1 2))
      (colChunk x0 3) (rowChunk x1 3) (colChunk x0 4) (rowChunk x1 4) (colChunk x0 5) (rowChunk x1 5))
    (colChunk x0 6) (rowChunk x1 6) (colChunk x0 7) (rowChunk x1 7)

/-- The three payload terms composed, over any sixteen loaded pieces that are the chunks of the two blocks. -/
theorem body_of_pieces (x0 : Vec F S128x1024 .f32) (x1 : Vec F S1024x128 .f32)
    (A0 B0 A1 B1 A2 B2 A3 B3 A4 B4 A5 B5 A6 B6 A7 B7 : Vec F S128x128 .f32)
    (hA0 : A0 = colChunk x0 0) (hB0 : B0 = rowChunk x1 0) (hA1 : A1 = colChunk x0 1) (hB1 : B1 = rowChunk x1 1)
    (hA2 : A2 = colChunk x0 2) (hB2 : B2 = rowChunk x1 2) (hA3 : A3 = colChunk x0 3) (hB3 : B3 = rowChunk x1 3)
    (hA4 : A4 = colChunk x0 4) (hB4 : B4 = rowChunk x1 4) (hA5 : A5 = colChunk x0 5) (hB5 : B5 = rowChunk x1 5)
    (hA6 : A6 = colChunk x0 6) (hB6 : B6 = rowChunk x1 6) (hA7 : A7 = colChunk x0 7) (hB7 : B7 = rowChunk x1 7) :
    k0_pay1 (k0_pay3 (k0_pay2 A0 B0 A1 B1 A2 B2) A3 B3 A4 B4 A5 B5) A6 B6 A7 B7 = body x0 x1 := by
  subst hA0 hB0 hA1 hB1 hA2 hB2 hA3 hB3 hA4 hB4 hA5 hB5 hA6 hB6 hA7 hB7
  rfl

/-- What the body leaves in the output's staging buffer: its one covering store's payload, whose sixteen loads read the
    chunks of the two input blocks. -/
theorem out_eq_body (c : Dev nD) (i : grid0.Coords) (a2 : Memref sig .tc .vmem S128x1024 .f32) (h2 : a2.IsWhole)
    (a3 : Memref sig .tc .vmem S1024x128 .f32) (h3 : a3.IsWhole) (a4 : Memref sig .tc .vmem S128x128 .f32) (h4 : a4.IsWhole)
    (x0 : Vec F S128x1024 .f32) (x1 : Vec F S1024x128 .f32) :
    out0_A_2 c i a2 h2 a3 h3 a4 h4 x0 x1 = body x0 x1 := by
  unfold out0_A_2
  rw [View.read_writes_eq_canon _ _ _ (cover0_A_2 c i a2 h2 a3 h3 a4 h4 x0 x1)]
  unfold kernelRun0_A
  dsimp only
  sl_unfold_words
  rw [View.canon_unit_zero hz]
  simp only [View.readAt_eq_ld, h2.read_unread, h3.read_unread]
  exact body_of_pieces x0 x1 _ _ _ _ _ _ _ _ _ _ _ _ _ _ _ _
    (ld_col x0 0 0 rfl _) (ld_row x1 0 0 rfl _) (ld_col x0 1 128 rfl _) (ld_row x1 1 128 rfl _)
    (ld_col x0 2 256 rfl _) (ld_row x1 2 256 rfl _) (ld_col x0 3 384 rfl _) (ld_row x1 3 384 rfl _)
    (ld_col x0 4 512 rfl _) (ld_row x1 4 512 rfl _) (ld_col x0 5 640 rfl _) (ld_row x1 5 640 rfl _)
    (ld_col x0 6 768 rfl _) (ld_row x1 6 768 rfl _) (ld_col x0 7 896 rfl _) (ld_row x1 7 896 rfl _)

end Cert.KernelIdeal.BlockValue

end
-- ==== Proof.BlockRead.lean ====
/-
  The value one grid point stores, read at an entry on the extended reals.

  The stored value is the running maximum, started at the splat of minus infinity, of eight chunk maxima; chunk `k` is the
  maximum over its 128 inner indices of `min (x0[p, 128 k + j]) (x1[128 k + j, q])`.  Minus infinity is the bottom element
  and the running maximum of the chunk suprema is the supremum over all 1024 inner indices.
-/
import proofs.«160439_j28183575396611_1_alg».proof.Proof.BlockValue

noncomputable section

open Idealize.ShloMosaic Idealize.ShloMosaic.TcCoe Idealize.SL.Sem

namespace Cert.KernelIdeal.BlockValue

open Cert.KernelIdeal Cert.KernelIdeal.Gen MaxMin Idealize.ShloMosaic.ValueIdx

variable {F : FTy → Type} [FloatOps F]

/-- The maximum over the middle axis, from minus infinity, of the entrywise minimum of chunk `k`'s two broadcast pieces. -/
def chunkMax (x0 : Vec F S128x1024 .f32) (x1 : Vec F S1024x128 .f32) (k : Fin 8) : FVec F S128x128 .f32 :=
  multiReduction .maximumf [1] S128x128
    (minimumf
      (broadcastTo S128x128x128 (shapeCast S128x128x1 (colChunk x0 k) shapeCasts_S128x128_S128x128x1) broadcasts_S128x128x1_S128x128x128)
      (broadcastTo S128x128x128 (shapeCast S1x128x128 (rowChunk x1 k) shapeCasts_S128x128_S1x128x128) broadcasts_S1x128x128_S128x128x128))
    0xFF800000#32 reduces_S128x128x128_S128x128 (.inl rfl) rfl

/-- The stored value is the running maximum of the eight chunk maxima, started at the splat of minus infinity. -/
theorem body_eq (x0 : Vec F S128x1024 .f32) (x1 : Vec F S1024x128 .f32) :
    body x0 x1 = maximumf (maximumf (maximumf (maximumf (maximumf (maximumf (maximumf (maximumf
      (broadcast S128x128 (Scalar.ofBits .f32 0xFF800000#32)) (chunkMax x0 x1 0)) (chunkMax x0 x1 1)) (chunkMax x0 x1 2))
      (chunkMax x0 x1 3)) (chunkMax x0 x1 4)) (chunkMax x0 x1 5)) (chunkMax x0 x1 6)) (chunkMax x0 x1 7) := rfl

/-- Chunk `k` at `(p, q)`: the supremum of `min (x0[p, i]) (x1[i, q])` over the inner indices `i` of chunk `k`. -/
theorem chunkMax_apply (x0 : Vec Ideal S128x1024 .f32) (x1 : Vec Ideal S1024x128 .f32) (k : Fin 8) (p q : Fin 128) :
    chunkMax x0 x1 k (ix2 p q) = chunkSup (fun i : Fin 1024 => min (x0 (ix2 p i)) (x1 (ix2 i q))) k := by
  unfold chunkMax
  exact chunk_apply (colChunk x0 k) (rowChunk x1 k) shapeCasts_S128x128_S128x128x1 shapeCasts_S128x128_S1x128x128
    broadcasts_S128x128x1_S128x128x128 broadcasts_S1x128x128_S128x128x128 reduces_S128x128x128_S128x128 (.inl rfl) rfl p q

/-- The stored value at `(p, q)` is the supremum over all 1024 inner indices of `min (x0[p, i]) (x1[i, q])`. -/
theorem body_apply (x0 : Vec Ideal S128x1024 .f32) (x1 : Vec Ideal S1024x128 .f32) (p q : Fin 128) :
    body x0 x1 (ix2 p q) = Finset.univ.sup fun i : Fin 1024 => min (x0 (ix2 p i)) (x1 (ix2 i q)) := by
  rw [body_eq]
  rw [maximumf_apply, maximumf_apply, maximumf_apply, maximumf_apply, maximumf_apply, maximumf_apply, maximumf_apply,
    maximumf_apply, broadcast_apply]
  rw [chunkMax_apply, chunkMax_apply, chunkMax_apply, chunkMax_apply, chunkMax_apply, chunkMax_apply, chunkMax_apply,
    chunkMax_apply]
  have hbot : (Scalar.ofBits .f32 0xFF800000#32 : Ideal .f32) = (⊥ : EReal) := ofBits_neg_inf
  rw [hbot]
  exact running_max_eq_sup _

end Cert.KernelIdeal.BlockValue
end
-- ==== Proof.ArrayValue.lean ====
/-
  The kernel's result array is the max-min composition of its two arguments.

  The grid is 2 x 8: point `(r, s)` holds rows `128 r .. 128 r + 127` of the left argument (all 1024 columns), columns
  `128 s .. 128 s + 127` of the right argument (all 1024 rows), and writes back the 128 x 128 block `(r, s)` of the result.
  What it writes at `(p, q)` of the block is `sup_i min (a[128 r + p, i]) (w[i, 128 s + q])`, the composition at the
  entry `(128 r + p, 128 s + q)` the block entry sits at.  The sixteen blocks tile the 256 x 1024 result, so the whole
  array ends at the composition.
-/
import proofs.«160439_j28183575396611_1_alg».proof.Proof.BlockRead

noncomputable section

open Idealize.ShloMosaic Idealize.ShloMosaic.TcCoe Idealize.SL.Sem
open Idealize.ShloMosaic.Pipeline (Dat)

namespace Cert.KernelIdeal.ArrayValue

open Cert.KernelIdeal Cert.KernelIdeal.Gen Cert.KernelIdeal.BlockValue MaxMin Idealize.ShloMosaic.ValueIdx

/-- A block of the result, from blocks of the arguments: if the left block's row `p` is row `rowOf p` of `A` and the right
    block's column `q` is column `colOf q` of `W`, the stored value at `y` is the composition at `(rowOf (y 0), colOf (y 1))`. -/
theorem block_eq (A : Vec Ideal S256x1024 .f32) (W : Vec Ideal S1024x1024 .f32)
    (x0 : Vec Ideal S128x1024 .f32) (x1 : Vec Ideal S1024x128 .f32) (rowOf : Fin 128 → Fin 256) (colOf : Fin 128 → Fin 1024)
    (hx0 : ∀ (p : Fin 128) (i : Fin 1024), x0 (ix2 p i) = A (ix2 (rowOf p) i))
    (hx1 : ∀ (i : Fin 1024) (q : Fin 128), x1 (ix2 i q) = W (ix2 i (colOf q))) (y : S128x128.Idx) :
    body x0 x1 y = compose A W (ix2 (rowOf (y 0)) (colOf (y 1))) := by
  obtain ⟨p, q, rfl⟩ : ∃ (p q : Fin 128), y = ix2 p q := ⟨y 0, y 1, eq_ix2 y⟩
  rw [body_apply]
  show _ = Finset.univ.sup fun k : Fin 1024 => min (A (ix2 (rowOf p) k)) (W (ix2 k (colOf q)))
  exact Finset.sup_congr rfl fun i _ => by rw [hx0, hx1]

variable (m : (ℓ : Loc nD τ sig) → Buf (Elt Ideal) ℓ) (ρ : Dev nD → PrngReg)

/-- The printed index maps over the grid: the left window follows the result's block row and stays at block column 0, the
    right window stays at block row 0 and follows the result's block column; the result's block indices stay in range. -/
theorem idx_facts : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = win0_2.index t (1 : Fin 2)
    ∧ win0_2.index t (0 : Fin 2) ≤ 1 ∧ win0_2.index t (1 : Fin 2) ≤ 7 :=
  (by decide +kernel : ∀ t : Fin grid0.N, _)

/-- Every block of the result is some grid point's. -/
theorem idx_onto : ∀ (q0 : Fin 2) (q1 : Fin 8), ∃ t : Fin cfg0.N, win0_2.index t = ![q0.val, q1.val] :=
  (by decide +kernel : ∀ (q0 : Fin 2) (q1 : Fin 8), ∃ t : Fin grid0.N, win0_2.index t = ![q0.val, q1.val])

/-- What point `t` writes back is block `t` of the composition of the two argument arrays. -/
theorem flushed_eq (c : Dev nD) (t : Fin cfg0.N) :
    (dats m 0 c).flushed 2 t
      = ((cfg0.win 2).blk t).view.read (Elt Ideal) (compose (V m c main_arg0) (V m c main_arg1)) := by
  show (cfg0.win 2).cut (grid0.coords t) ((dats m 0 c).after 2 t) = _
  rw [after0_2]
  unfold outsAt0
  rw [out_eq_body c (grid0.coords t) (ms0_0 t) (hs0_0 t) (ms0_1 t) (hs0_1 t) (ms0_2 t) (hs0_2 t) (iblk m c 0 t) (iblk m c 1 t)]
  obtain ⟨e0, e1, e2, e3, e4, e5⟩ := idx_facts t
  funext j
  show body (iblk m c 0 t) (iblk m c 1 t) j = compose (V m c main_arg0) (V m c main_arg1) (((cfg0.win 2).blk t).view.emb j)
  refine (block_eq (V m c main_arg0) (V m c main_arg1) (iblk m c 0 t) (iblk m c 1 t)
    (fun p => ⟨win0_2.index t (0 : Fin 2) * 128 + p.val, by have := p.isLt; omega⟩)
    (fun q => ⟨win0_2.index t (1 : Fin 2) * 128 + q.val, by have := q.isLt; omega⟩) ?_ ?_ j).trans
    (congrArg (compose (V m c main_arg0) (V m c main_arg1)) ?_)
  · intro p i
    show V m c main_arg0 (((cfg0.win 0).blk t).view.emb (ix2 p i)) = V m c main_arg0 _
    refine congrArg (V m c main_arg0) (funext fun a => Fin.ext ?_)
    match a with
    | ⟨0, _⟩ => show win0_0.index t (0 : Fin 2) * 128 + 1 * p.val = win0_2.index t (0 : Fin 2) * 128 + p.val; omega
    | ⟨1, _⟩ => show win0_0.index t (1 : Fin 2) * 1024 + 1 * i.val = i.val; omega
  · intro i q
    show V m c main_arg1 (((cfg0.win 1).blk t).view.emb (ix2 i q)) = V m c main_arg1 _
    refine congrArg (V m c main_arg1) (funext fun a => Fin.ext ?_)
    match a with
    | ⟨0, _⟩ => show win0_1.index t (0 : Fin 2) * 1024 + 1 * i.val = i.val; omega
    | ⟨1, _⟩ => show win0_1.index t (1 : Fin 2) * 128 + 1 * q.val = win0_2.index t (1 : Fin 2) * 128 + q.val; omega
  · funext a; apply Fin.ext
    match a with
    | ⟨0, _⟩ => show win0_2.index t (0 : Fin 2) * 128 + (j 0).val = win0_2.index t (0 : Fin 2) * 128 + 1 * (j 0).val; omega
    | ⟨1, _⟩ => show win0_2.index t (1 : Fin 2) * 128 + (j 1).val = win0_2.index t (1 : Fin 2) * 128 + 1 * (j 1).val; omega

/-- An index of the result is in point `t`'s block iff each coordinate is in the block's range on its axis. -/
theorem mem_blk (t : Fin cfg0.N) (i : S256x1024.Idx) :
    i ∈ ((cfg0.win 2).blk t).view.set ↔ ∀ a : Fin 2, win0_2.index t a * S128x128.size a ≤ (i a).val
      ∧ (i a).val < win0_2.index t a * S128x128.size a + S128x128.size a := by
  show i ∈ ((View.whole main_v0).slice (win0_2.rect t)).set ↔ _
  rw [View.set_slice_whole, Rect.mem_set_unit]
  exact Iff.rfl

/-- Every index of the result lies in the block of the point `(row / 128, column / 128)`. -/
theorem covered (i : S256x1024.Idx) :
    ∃ t : Fin cfg0.N, (cfg0.win 2).flush t = true ∧ i ∈ ((cfg0.win 2).blk t).view.set := by
  have hi0 : (i 0).val < 256 := (i 0).isLt
  have hi1 : (i 1).val < 1024 := (i 1).isLt
  obtain ⟨t, ht⟩ := idx_onto ⟨(i 0).val / 128, by omega⟩ ⟨(i 1).val / 128, by omega⟩
  have q0 : win0_2.index t (0 : Fin 2) = (i 0).val / 128 := congrFun ht 0
  have q1 : win0_2.index t (1 : Fin 2) = (i 1).val / 128 := congrFun ht 1
  refine ⟨t, flush0_2 t, ?_⟩
  rw [mem_blk]
  intro a
  match a with
  | ⟨0, _⟩ => show win0_2.index t (0 : Fin 2) * 128 ≤ (i 0).val ∧ (i 0).val < win0_2.index t (0 : Fin 2) * 128 + 128; omega
  | ⟨1, _⟩ => show win0_2.index t (1 : Fin 2) * 128 ≤ (i 1).val ∧ (i 1).val < win0_2.index t (1 : Fin 2) * 128 + 128; omega

/-- The result array after the run is the composition of the argument arrays. -/
theorem final (c : Dev nD) :
    (dats m 0 c).arrAt 2 cfg0.N = compose (V m c main_arg0) (V m c main_arg1) :=
  (dats m 0 c).arrAt_eq_of_cover 2 (compose (V m c main_arg0) (V m c main_arg1)) (fun t _ => flushed_eq m c t) covered

/-- The run, read: the result array at the composition of the arguments, the arguments unchanged. -/
theorem run : θ_run defs (onTc (τ := τ) (main (F := Ideal))) ⟨m, fun _ => 0, ρ⟩ fun r => ∀ c : Dev nD,
      r.2.mem ((c : Thread nD τ).loc main_v0)
        = compose (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Cert.KernelIdeal.Value.run_blocks m ρ)

end Cert.KernelIdeal.ArrayValue

end
-- ==== Proof.RefValue.lean ====
/-
  The reference computes the max-min composition.

  The reference broadcasts the left operand `a[b, i]` along a new last axis and the right operand `w[i, o]` along a new
  first axis to a 256 x 1024 x 1024 array, takes the entrywise minimum, and reduces the middle axis with `max` from minus
  infinity.  Read at `(b, o)`: the fold of `max` from the bottom element over the 1024 inner indices `i` of
  `min (a[b, i]) (w[i, o])`, that is, their supremum.
-/
import proofs.«160439_j28183575396611_1_alg».proof.Proof.Gen.ReferenceIdeal.Read
import proofs.«160439_j28183575396611_1_alg».proof.Proof.Spec
import proofs.«160439_j28183575396611_1_alg».proof.Proof.Chunk
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.ValueIdx MaxMin

/-- The reduced index `(b, o)` with the inner coordinate `i` put back on the middle axis is `(b, i, o)`. -/
theorem lift_mid (h : S256x1024x1024.Reduces [1] S256x1024) (b : Fin 256) (o : Fin 1024) (i : Fin (S256x1024x1024.size 1)) :
    h.lift (ix2 b o) i = ix3 b (⟨i.val, i.isLt⟩ : Fin 1024) o := by
  funext c; apply Fin.ext
  fin_cases c <;> rfl

/-- The broadcast left operand at `(b, i, o)` is `a[b, i]`. -/
theorem left_apply (a : FVec Ideal S256x1024 .f32) (b : Fin 256) (i o : Fin 1024) :
    val_main_v2 (F := Ideal) a (ix3 b i o) = a (ix2 b i) := by
  rw [val_main_v2_apply, val_main_v0_apply]
  exact congrArg a (funext fun c => by fin_cases c <;> rfl)

/-- The broadcast right operand at `(b, i, o)` is `w[i, o]`. -/
theorem right_apply (w : FVec Ideal S1024x1024 .f32) (b : Fin 256) (i o : Fin 1024) :
    val_main_v3 (F := Ideal) w (ix3 b i o) = w (ix2 i o) := by
  rw [val_main_v3_apply, val_main_v1_apply]
  exact congrArg w (funext fun c => by fin_cases c <;> rfl)

/-- The reference's result is the max-min composition of its two arguments. -/
theorem reference_eq (a : FVec Ideal S256x1024 .f32) (w : FVec Ideal S1024x1024 .f32) :
    val_main_v5 (F := Ideal) a w = compose a w := by
  funext idx
  obtain ⟨b, o, rfl⟩ : ∃ (b : Fin 256) (o : Fin 1024), idx = ix2 b o := ⟨idx 0, idx 1, eq_ix2 idx⟩
  have hr : S256x1024x1024.Reduces [1] S256x1024 := by decide
  unfold val_main_v5
  rw [Host.reduce_eq_fold_single FloatOps.maximumf _ _ reducesTo_S256x1024x1024_S256x1024_d1 hr h_S_, compose_apply]
  have e : val_main_cst (F := Ideal) (Shape.Idx.first h_S_) = (⊥ : EReal) := ofBits_neg_inf
  rw [e]
  change (Finset.univ : Finset (Fin 1024)).sup (fun i : Fin 1024 =>
    val_main_v4 (F := Ideal) a w (hr.lift (ix2 b o) i)) = _
  refine Finset.sup_congr rfl fun i _ => ?_
  rw [lift_mid hr b o i, val_main_v4_apply, left_apply, right_apply]
  rfl

end Cert.ReferenceIdeal.RefValue

end
-- ==== Proof.lean ====
/-
  The kernel computes the max-min composition `out[b, o] = max_i min (m[b, i]) (w[i, o])` of a 256 x 1024 array with a
  1024 x 1024 array, on a 2 x 8 grid of 128 x 128 output blocks, walking the inner axis in eight chunks of 128 and keeping
  a running maximum that starts at minus infinity.  The reference takes the maximum over the whole inner axis at once.

  On the extended reals `min` and `max` are the lattice operations and minus infinity is the bottom element, so both
  programs compute `sup_i min (m[b, i]) (w[i, o])`: the running maximum of the eight chunk suprema is the supremum over all
  1024 inner indices.  No operation was rewritten when the kernel was idealized, and the equality needs nothing of the
  inputs beyond their being extended reals.

  The two kernel frames are the generated frame runs; the reference's frame is its generated run with the result
  dropped; the value claim sets the kernel's run (its result array read block by block) beside the reference's run
  (its reduction read as a supremum), both at the same function of the argument arrays.
-/
import proofs.«160439_j28183575396611_1_alg».proof.Defs
import proofs.«160439_j28183575396611_1_alg».proof.Proof.Gen.Kernel
import proofs.«160439_j28183575396611_1_alg».proof.Proof.Gen.Kernel.Skeleton
import proofs.«160439_j28183575396611_1_alg».proof.Proof.Gen.Kernel.Launch
import proofs.«160439_j28183575396611_1_alg».proof.Proof.Gen.Kernel.Points
import proofs.«160439_j28183575396611_1_alg».proof.Proof.Gen.Kernel.Frame
import proofs.«160439_j28183575396611_1_alg».proof.Proof.Gen.KernelIdeal
import proofs.«160439_j28183575396611_1_alg».proof.Proof.Gen.KernelIdeal.Skeleton
import proofs.«160439_j28183575396611_1_alg».proof.Proof.Gen.KernelIdeal.Launch
import proofs.«160439_j28183575396611_1_alg».proof.Proof.Gen.KernelIdeal.Points
import proofs.«160439_j28183575396611_1_alg».proof.Proof.Gen.KernelIdeal.Frame
import proofs.«160439_j28183575396611_1_alg».proof.Proof.Gen.ReferenceIdeal
import proofs.«160439_j28183575396611_1_alg».proof.Proof.Gen.Pre_finite_inputs
import proofs.«160439_j28183575396611_1_alg».proof.Proof.Gen.KernelIdeal.Value
import proofs.«160439_j28183575396611_1_alg».proof.Proof.Gen.ReferenceIdeal.Run
import proofs.«160439_j28183575396611_1_alg».proof.Proof.Gen.ReferenceIdeal.Read
import proofs.«160439_j28183575396611_1_alg».proof.Proof.ArrayValue
import proofs.«160439_j28183575396611_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end with the max-min composition of the (agreeing) argument arrays. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.RefValue.reference_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
